-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S512x784 : Shape := ⟨2, ![512, 784]⟩
abbrev S512x512 : Shape := ⟨2, ![512, 512]⟩
abbrev S10x512 : Shape := ⟨2, ![10, 512]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S512x784 : S_.BroadcastsInDim S512x784 (![] : Fin 0 → Fin S512x784.rank)
  reducesTo_S512x784_S_d0_1 : S512x784.ReducesTo [0, 1] S_
  bcast_S_S512x512 : S_.BroadcastsInDim S512x512 (![] : Fin 0 → Fin S512x512.rank)
  reducesTo_S512x512_S_d0_1 : S512x512.ReducesTo [0, 1] S_
  bcast_S_S10x512 : S_.BroadcastsInDim S10x512 (![] : Fin 0 → Fin S10x512.rank)
  reducesTo_S10x512_S_d0_1 : S10x512.ReducesTo [0, 1] S_

variable [Facts]

def fn_part1 {F : FTy → Type} [FloatOps F] (main_v13 : IVec S_ 1) (main_v16 : IVec S10x512 1) : IVec S_ 1 :=
  let main_c_5 : IVec S_ 1 := constantI S_ 1 1#1
  let main_v17 : IVec S_ 1 := (fun x v => Host.reduce IntOp.andi x v reducesTo_S10x512_S_d0_1 h_S_) main_v16 main_c_5
  let main_v18 : IVec S_ 1 := andi main_v13 main_v17
  main_v18

def fn {F : FTy → Type} [FloatOps F] (main_arg0 : FVec F S16384x784 .f32) (main_arg1 : FVec F S512x784 .f32) (main_arg2 : FVec F S512x512 .f32) (main_arg3 : FVec F S10x512 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S512x784 .f32 := Host.absf main_arg1
  let main_cst_0 : FVec F S_ .f32 := constant S_ .f32 0x7F800000#32
  let main_v5 : FVec F S512x784 .f32 := broadcastInDim S512x784 ![] bcast_S_S512x784 main_cst_0
  let main_v6 : IVec S512x784 1 := cmpf .olt main_v4 main_v5
  let main_c_1 : IVec S_ 1 := constantI S_ 1 1#1
  let main_v7 : IVec S_ 1 := (fun x v => Host.reduce IntOp.andi x v reducesTo_S512x784_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S10x512 .f32 := Host.absf main_arg3
  let main_cst_4 : FVec F S_ .f32 := constant S_ .f32 0x7F800000#32
  let main_v15 : FVec F S10x512 .f32 := broadcastInDim S10x512 ![] bcast_S_S10x512 main_cst_4
  let main_v16 : IVec S10x512 1 := cmpf .olt main_v14 main_v15
  fn_part1 (F := F) main_v13 main_v16
-- ==== Kernel.lean ====
abbrev S16384x784 : Shape := ⟨2, ![16384, 784]⟩
abbrev S512x784 : Shape := ⟨2, ![512, 784]⟩
abbrev S512x512 : Shape := ⟨2, ![512, 512]⟩
abbrev S10x512 : Shape := ⟨2, ![10, 512]⟩
abbrev S784x512 : Shape := ⟨2, ![784, 512]⟩
abbrev S512x10 : Shape := ⟨2, ![512, 10]⟩
abbrev S16384x10 : Shape := ⟨2, ![16384, 10]⟩
abbrev S2048x784 : Shape := ⟨2, ![2048, 784]⟩
abbrev S2048x10 : Shape := ⟨2, ![2048, 10]⟩
abbrev S2048x512 : Shape := ⟨2, ![2048, 512]⟩

abbrev nBuf : Space → Nat
  | .hbm => 8
  | .vmem => 7
  | .smem => 0
  | _ => 0

abbrev bufTy : (tb : Table) → Fin (tcTables nBuf tb) → BufTy
  | .hbm, ⟨0, _⟩ => ⟨S16384x784, .f32⟩
  | .hbm, ⟨1, _⟩ => ⟨S512x784, .f32⟩
  | .hbm, ⟨2, _⟩ => ⟨S512x512, .f32⟩
  | .hbm, ⟨3, _⟩ => ⟨S10x512, .f32⟩
  | .hbm, ⟨4, _⟩ => ⟨S784x512, .f32⟩
  | .hbm, ⟨5, _⟩ => ⟨S512x512, .f32⟩
  | .hbm, ⟨6, _⟩ => ⟨S512x10, .f32⟩
  | .hbm, ⟨7, _⟩ => ⟨S16384x10, .f32⟩
  | .local _ .vmem, ⟨0, _⟩ => ⟨S2048x784, .f32⟩
  | .local _ .vmem, ⟨1, _⟩ => ⟨S2048x784, .f32⟩
  | .local _ .vmem, ⟨2, _⟩ => ⟨S784x512, .f32⟩
  | .local _ .vmem, ⟨3, _⟩ => ⟨S512x512, .f32⟩
  | .local _ .vmem, ⟨4, _⟩ => ⟨S512x10, .f32⟩
  | .local _ .vmem, ⟨5, _⟩ => ⟨S2048x10, .f32⟩
  | .local _ .vmem, ⟨6, _⟩ => ⟨S2048x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x784_S784x512_1_0 : S512x784.Transposes [1, 0] S784x512
  transposes_S512x512_S512x512_1_0 : S512x512.Transposes [1, 0] S512x512
  transposes_S10x512_S512x10_1_0 : S10x512.Transposes [1, 0] S512x10
  inb_S2048x784_S2048x784_0_0 : ∀ a, (![0, 0] : Fin 2 → Nat) a + S2048x784.size a ≤ S2048x784.size a
  h_S2048x784 : 0 < S2048x784.numel
  bitsLt_bf16_f32 : FTy.bits .bf16 < FTy.bits .f32
  inb_S784x512_S784x512_0_0 : ∀ a, (![0, 0] : Fin 2 → Nat) a + S784x512.size a ≤ S784x512.size a
  h_S784x512 : 0 < S784x512.numel
  shapeCasts_S784x512_S784x512 : S784x512.ShapeCasts S784x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S2048x10_S2048x10_0_0 : ∀ a, (![0, 0] : Fin 2 → Nat) a + S2048x10.size a ≤ S2048x10.size a
  h_S2048x10 : 0 < S2048x10.numel
  dot_S2048x784_S784x512_S2048x512_1_0_0_1_n_n_wf : DotDims.WF S2048x784 S784x512 S2048x512 [1] [0] [0] [1] [] []
  dot_S2048x512_S512x512_S2048x512_1_0_0_1_n_n_wf : DotDims.WF S2048x512 S512x512 S2048x512 [1] [0] [0] [1] [] []
  dot_S2048x512_S512x10_S2048x10_1_0_0_1_n_n_wf : DotDims.WF S2048x512 S512x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S16384x784.size a
  hwx0_0 : ∀ i : grid0.Coords, EltTy.bits .f32 = 32 ∨ (Rect.block (s := S16384x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x512.size a ≤ S784x512.size a
  hwx0_1 : ∀ i : grid0.Coords, EltTy.bits .f32 = 32 ∨ (Rect.block (s := S784x512) S784x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x10.size a ≤ S512x10.size a
  hwx0_3 : ∀ i : grid0.Coords, EltTy.bits .f32 = 32 ∨ (Rect.block (s := S512x10) S512x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x10.size a ≤ S16384x10.size a
  hwx0_4 : ∀ i : grid0.Coords, EltTy.bits .f32 = 32 ∨ (Rect.block (s := S16384x10) S2048x10.size (cc0_transform_4 i) (hinb0_4 i)).WholeWords (EltTy.packing .f32)

variable [Facts₀]

def dot_S2048x784_S784x512_S2048x512_1_0_0_1_n_n : DotDims S2048x784 S784x512 S2048x512 where
  lhsContracting := [1]
  rhsContracting := [0]
  lhsNonContracting := [0]
  rhsNonContracting := [1]
  lhsBatch := []
  rhsBatch := []
  wf := dot_S2048x784_S784x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x10_S2048x10_1_0_0_1_n_n : DotDims S2048x512 S512x10 S2048x10 where
  lhsContracting := [1]
  rhsContracting := [0]
  lhsNonContracting := [0]
  rhsNonContracting := [1]
  lhsBatch := []
  rhsBatch := []
  wf := dot_S2048x512_S512x10_S2048x10_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S784x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S512x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x784 : Shape := ⟨2, ![16384, 784]⟩
abbrev S512x784 : Shape := ⟨2, ![512, 784]⟩
abbrev S512x512 : Shape := ⟨2, ![512, 512]⟩
abbrev S10x512 : Shape := ⟨2, ![10, 512]⟩
abbrev S784x16384 : Shape := ⟨2, ![784, 16384]⟩
abbrev S512x16384 : Shape := ⟨2, ![512, 16384]⟩
abbrev S_ : Shape := ⟨0, ![]⟩
abbrev S10x16384 : Shape := ⟨2, ![10, 16384]⟩
abbrev S16384x10 : Shape := ⟨2, ![16384, 10]⟩

abbrev nBuf : Space → Nat
  | .hbm => 15
  | .vmem => 0
  | .smem => 0
  | _ => 0

abbrev bufTy : (tb : Table) → Fin (tcTables nBuf tb) → BufTy
  | .hbm, ⟨0, _⟩ => ⟨S16384x784, .f32⟩
  | .hbm, ⟨1, _⟩ => ⟨S512x784, .f32⟩
  | .hbm, ⟨2, _⟩ => ⟨S512x512, .f32⟩
  | .hbm, ⟨3, _⟩ => ⟨S10x512, .f32⟩
  | .hbm, ⟨4, _⟩ => ⟨S784x16384, .f32⟩
  | .hbm, ⟨5, _⟩ => ⟨S512x16384, .f32⟩
  | .hbm, ⟨6, _⟩ => ⟨S_, .f32⟩
  | .hbm, ⟨7, _⟩ => ⟨S512x16384, .f32⟩
  | .hbm, ⟨8, _⟩ => ⟨S512x16384, .f32⟩
  | .hbm, ⟨9, _⟩ => ⟨S512x16384, .f32⟩
  | .hbm, ⟨10, _⟩ => ⟨S_, .f32⟩
  | .hbm, ⟨11, _⟩ => ⟨S512x16384, .f32⟩
  | .hbm, ⟨12, _⟩ => ⟨S512x16384, .f32⟩
  | .hbm, ⟨13, _⟩ => ⟨S10x16384, .f32⟩
  | .hbm, ⟨14, _⟩ => ⟨S16384x10, .f32⟩
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_call1_cst : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]

class Facts₀ : Prop where
  transposes_S16384x784_S784x16384_1_0 : S16384x784.Transposes [1, 0] S784x16384
  bcast_S_S512x16384 : S_.BroadcastsInDim S512x16384 (![] : Fin 0 → Fin S512x16384.rank)
  transposes_S10x16384_S16384x10_1_0 : S10x16384.Transposes [1, 0] S16384x10
  dot_S512x784_S784x16384_S512x16384_1_0_0_1_n_n_wf : DotDims.WF S512x784 S784x16384 S512x16384 [1] [0] [0] [1] [] []
  dot_S512x512_S512x16384_S512x16384_1_0_0_1_n_n_wf : DotDims.WF S512x512 S512x16384 S512x16384 [1] [0] [0] [1] [] []
  dot_S10x512_S512x16384_S10x16384_1_0_0_1_n_n_wf : DotDims.WF S10x512 S512x16384 S10x16384 [1] [0] [0] [1] [] []

variable [Facts₀]

def dot_S512x784_S784x16384_S512x16384_1_0_0_1_n_n : DotDims S512x784 S784x16384 S512x16384 where
  lhsContracting := [1]
  rhsContracting := [0]
  lhsNonContracting := [0]
  rhsNonContracting := [1]
  lhsBatch := []
  rhsBatch := []
  wf := dot_S512x784_S784x16384_S512x16384_1_0_0_1_n_n_wf
def dot_S512x512_S512x16384_S512x16384_1_0_0_1_n_n : DotDims S512x512 S512x16384 S512x16384 where
  lhsContracting := [1]
  rhsContracting := [0]
  lhsNonContracting := [0]
  rhsNonContracting := [1]
  lhsBatch := []
  rhsBatch := []
  wf := dot_S512x512_S512x16384_S512x16384_1_0_0_1_n_n_wf
def dot_S10x512_S512x16384_S10x16384_1_0_0_1_n_n : DotDims S10x512 S512x16384 S10x16384 where
  lhsContracting := [1]
  rhsContracting := [0]
  lhsNonContracting := [0]
  rhsNonContracting := [1]
  lhsBatch := []
  rhsBatch := []
  wf := dot_S10x512_S512x16384_S10x16384_1_0_0_1_n_n_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.MlpSpec.lean ====
import Idealize.ShloMosaic.PureOps.Ideal
import Idealize.ShloMosaic.PureOps.Ideal.Laws
import Idealize.ShloMosaic.Lib.ValueIdx

/-!
# Three dense layers with a rectifier after the first two, entry by entry on the extended reals

For a batch `x : [16384, 784]` and weights `W1 : [512, 784]`, `W2 : [512, 512]`, `W3 : [10, 512]` (each weight stored
output-major: row `j` of `W1` holds the coefficients of hidden unit `j`),

  * `hid1 b j = relu (∑ i, x[b, i] · W1[j, i])`,
  * `hid2 b k = relu (∑ j, hid1 b j · W2[k, j])`,
  * `out[b, o] = ∑ k, hid2 b k · W3[o, k]`,

where `relu v` is the larger of `v` and zero (zero spelt as the float word of all zero bits, as both programs spell
it). Every product is written "activation times weight"; a program that writes "weight times activation" computes the
same sums, multiplication of extended reals being commutative, and that is the only law this file needs: no sum is
re-ordered, nothing is distributed, so nothing here asks the inputs to be finite.
-/

noncomputable section

namespace Cert.Mlp

open Idealize.ShloMosaic Idealize.ShloMosaic.ValueIdx

/-- The rectifier: the larger of a value and the value of the all-zero float word. -/
def relu (v : EReal) : EReal := max v (Ideal.ofBits .f32 0x00000000#32)

/-- Hidden unit `j` of the first layer on batch row `b`. -/
def hid1 (x : FVec Ideal ⟨2, ![16384, 784]⟩ .f32) (w1 : FVec Ideal ⟨2, ![512, 784]⟩ .f32) (b : Fin 16384) (j : Fin 512) : EReal :=
  relu (∑ i : Fin 784, x (ix2 b i) * w1 (ix2 j i))

/-- Hidden unit `k` of the second layer on batch row `b`. -/
def hid2 (x : FVec Ideal ⟨2, ![16384, 784]⟩ .f32) (w1 : FVec Ideal ⟨2, ![512, 784]⟩ .f32) (w2 : FVec Ideal ⟨2, ![512, 512]⟩ .f32)
    (b : Fin 16384) (k : Fin 512) : EReal :=
  relu (∑ j : Fin 512, hid1 x w1 b j * w2 (ix2 k j))

/-- The network's output array: entry `(b, o)` is output unit `o` on batch row `b`. -/
def out (x : FVec Ideal ⟨2, ![16384, 784]⟩ .f32) (w1 : FVec Ideal ⟨2, ![512, 784]⟩ .f32) (w2 : FVec Ideal ⟨2, ![512, 512]⟩ .f32)
    (w3 : FVec Ideal ⟨2, ![10, 512]⟩ .f32) : FVec Ideal ⟨2, ![16384, 10]⟩ .f32 :=
  fun i => ∑ k : Fin 512, hid2 x w1 w2 (i 0) k * w3 (ix2 (i 1) k)

/-- The same three layers with every product written "weight times activation", as a program that multiplies the
    weight matrices from the left computes them: equal to `out` by commutativity of each product. -/
theorem out_weight_first (x : FVec Ideal ⟨2, ![16384, 784]⟩ .f32) (w1 : FVec Ideal ⟨2, ![512, 784]⟩ .f32)
    (w2 : FVec Ideal ⟨2, ![512, 512]⟩ .f32) (w3 : FVec Ideal ⟨2, ![10, 512]⟩ .f32) (b : Fin 16384) (o : Fin 10) :
    (∑ k : Fin 512, w3 (ix2 o k) * relu (∑ j : Fin 512, w2 (ix2 k j) * relu (∑ i : Fin 784, w1 (ix2 j i) * x (ix2 b i))))
      = out x w1 w2 w3 (ix2 b o) := by
  unfold out hid2 hid1
  refine Finset.sum_congr rfl fun k _ => ?_
  rw [mul_comm]
  refine congrArg (fun v => relu v * w3 (ix2 o k)) ?_
  refine Finset.sum_congr rfl fun j _ => ?_
  rw [mul_comm]
  refine congrArg (fun v => relu v * w2 (ix2 k j)) ?_
  exact Finset.sum_congr rfl fun i _ => mul_comm _ _

end Cert.Mlp

end
-- ==== Proof.MlpBody.lean ====
import proofs.«141468_g41755672052512_cont_8to1_b_1445_5_alg».proof.Proof.Gen.KernelIdeal.Skeleton
import proofs.«141468_g41755672052512_cont_8to1_b_1445_5_alg».proof.Proof.LibContract
import proofs.«141468_g41755672052512_cont_8to1_b_1445_5_alg».proof.Proof.MlpSpec
import Idealize.ShloMosaic.Lib.Pipeline.Value

/-!
# What one batch tile's store holds, entry by entry

The kernel's body loads a tile of 2048 batch rows `xb : [2048, 784]` and the three weight matrices already laid
input-major (`a1 : [784, 512]`, `a2 : [512, 512]`, `a3 : [512, 10]`), and stores
`relu (relu (xb · a1) · a2) · a3`: three matrix products into the zero accumulator, each a plain contraction of the
left operand's columns with the right operand's rows, a rectifier after the first two. On the extended reals the
changes of float format between the products are the identity, so entry `(p, q)` of the stored tile is

  `∑ k, relu (∑ j, relu (∑ i, xb[p, i] · a1[i, j]) · a2[j, k]) · a3[k, q]`.
-/

noncomputable section

namespace Cert.Mlp

open Idealize.ShloMosaic Idealize.ShloMosaic.ValueIdx Cert.KernelIdeal Cert.KernelIdeal.Gen

/-- The three printed contraction records are the plain contraction at their sizes. -/
theorem rec1_eq : dot_S2048x784_S784x512_S2048x512_1_0_0_1_n_n = DotDims.plain 2048 784 512 := rfl
theorem rec2_eq : dot_S2048x512_S512x512_S2048x512_1_0_0_1_n_n = DotDims.plain 2048 512 512 := rfl
theorem rec3_eq : dot_S2048x512_S512x10_S2048x10_1_0_0_1_n_n = DotDims.plain 2048 512 10 := rfl

/-- Entry `(p, q)` of the tile the body stores, from the four loaded blocks. -/
theorem tile_apply (xb : Vec Ideal S2048x784 .f32) (a1 : Vec Ideal S784x512 .f32) (a2 : Vec Ideal S512x512 .f32)
    (a3 : Vec Ideal S512x10 .f32) (p : Fin 2048) (q : Fin 10) :
    k0_pay1 (F := Ideal) xb a1 a2 a3 (ix2 p q)
      = ∑ k : Fin 512, relu (∑ j : Fin 512, relu (∑ i : Fin 784, xb (ix2 p i) * a1 (ix2 i j)) * a2 (ix2 j k)) * a3 (ix2 k q) := by
  unfold k0_pay1
  rw [rec1_eq, rec2_eq, rec3_eq]
  simp only [Cert.LibDense.matmul_plain_zero_apply, truncf_apply, maximumf_apply, broadcast_apply, shapeCast_self]
  rfl

/-- The stored tile is a tile of the network's output. Let the loaded batch block be rows `r0 … r0 + 2047` of the batch
    `x` and the three loaded weight blocks the transposes of `w1`, `w2`, `w3`; then entry `(p, q)` of the stored tile
    is `out[r0 + p, q]`: the body's contraction over a weight block's rows is the layer's sum over a weight's columns. -/
theorem tile_eq_out (xb : Vec Ideal S2048x784 .f32) (a1 : Vec Ideal S784x512 .f32) (a2 : Vec Ideal S512x512 .f32)
    (a3 : Vec Ideal S512x10 .f32)
    (x : FVec Ideal ⟨2, ![16384, 784]⟩ .f32) (w1 : FVec Ideal ⟨2, ![512, 784]⟩ .f32) (w2 : FVec Ideal ⟨2, ![512, 512]⟩ .f32)
    (w3 : FVec Ideal ⟨2, ![10, 512]⟩ .f32) (r : Fin 2048 → Fin 16384)
    (hx : ∀ (p : Fin 2048) (i : Fin 784), xb (ix2 p i) = x (ix2 (r p) i))
    (h1 : ∀ (i : Fin 784) (j : Fin 512), a1 (ix2 i j) = w1 (ix2 j i))
    (h2 : ∀ (j : Fin 512) (k : Fin 512), a2 (ix2 j k) = w2 (ix2 k j))
    (h3 : ∀ (k : Fin 512) (q : Fin 10), a3 (ix2 k q) = w3 (ix2 q k))
    (p : Fin 2048) (q : Fin 10) :
    k0_pay1 (F := Ideal) xb a1 a2 a3 (ix2 p q) = out x w1 w2 w3 (ix2 (r p) q) := by
  rw [tile_apply]
  show _ = ∑ k : Fin 512, hid2 x w1 w2 (r p) k * w3 (ix2 q k)
  unfold hid2 hid1
  simp only [hx, h1, h2, h3]

end Cert.Mlp

end
-- ==== Proof.MlpKernel.lean ====
import proofs.«141468_g41755672052512_cont_8to1_b_1445_5_alg».proof.Proof.Gen.KernelIdeal.Value
import proofs.«141468_g41755672052512_cont_8to1_b_1445_5_alg».proof.Proof.MlpBody
import Idealize.ShloMosaic.Lib.Pipeline.Value
import Idealize.ShloMosaic.Lib.ValueLayout
import Idealize.ShloMosaic.Lib.StableHlo.Run
import Idealize.ShloMosaic.Lib.Tactic

/-!
# The kernel's result array is the network's output

The grid has eight points; point `t` fetches rows `2048·t … 2048·t + 2047` of the batch, finds the three weight
windows whole (their one block is the whole transposed weight, written by the host's transposes before the launch),
and writes its stored tile back to rows `2048·t … 2048·t + 2047` of the `[16384, 10]` result. By `tile_eq_out` that tile
is the same rows of `Cert.Mlp.out` of the four argument arrays; the eight row blocks cover the result, row `r` lying in
the block of point `r / 2048`; so the result array ends holding `out`.
-/

noncomputable section

namespace Cert.Mlp

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The network's output of the four argument arrays as launched, on core `c`. -/
def outOf (c : Dev nD) : Buf (Elt Ideal) ((c : Thread nD τ).loc main_v0) :=
  out (m ((c : Thread nD τ).loc main_arg0)) (m ((c : Thread nD τ).loc main_arg1)) (m ((c : Thread nD τ).loc main_arg2))
    (m ((c : Thread nD τ).loc main_arg3))

theorem zero_off : (![0, 0] : Fin 2 → Nat) = fun _ => 0 := funext fun a => by fin_cases a <;> rfl

/-! ## The weight windows' arrays: the host's transposes -/

theorem V_w1t (c : Dev nD) : (V m c main_call0_v0 : S784x512.Idx → EReal)
    = transpose S784x512 [1, 0] (m ((c : Thread nD τ).loc main_arg1)) Facts₀.transposes_S512x784_S784x512_1_0 := by
  dsimp only [Gen.V, Gen.hostOps0]; after_results; rfl

theorem V_w2t (c : Dev nD) : (V m c main_call0_v1 : S512x512.Idx → EReal)
    = transpose S512x512 [1, 0] (m ((c : Thread nD τ).loc main_arg2)) Facts₀.transposes_S512x512_S512x512_1_0 := by
  dsimp only [Gen.V, Gen.hostOps0]; after_results; rfl

theorem V_w3t (c : Dev nD) : (V m c main_call0_v2 : S512x10.Idx → EReal)
    = transpose S512x10 [1, 0] (m ((c : Thread nD τ).loc main_arg3)) Facts₀.transposes_S10x512_S512x10_1_0 := by
  dsimp only [Gen.V, Gen.hostOps0]; after_results; rfl

/-! ## The printed index maps over the grid -/

/-- The batch window and the result window move down one block of rows per point; the weight windows stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of point `t`'s block is row `2048·t + p` of the array. -/
def rowOf (t : Fin cfg0.N) (p : Fin 2048) : Fin 16384 :=
  ⟨2048 * t.val + p.val, by have ht : t.val < 8 := Nat.lt_of_lt_of_eq t.isLt N_0; have hp := p.isLt; omega⟩

/-! ## The input blocks at a point, entry by entry -/

theorem xblock_apply (c : Dev nD) (t : Fin cfg0.N) (p : Fin 2048) (i : Fin 784) :
    (iblk m c 0 t : Vec Ideal S2048x784 .f32) (ix2 p i)
      = (m ((c : Thread nD τ).loc main_arg0) : S16384x784.Idx → EReal) (ix2 (rowOf t p) i) := by
  obtain ⟨e0, e1, -⟩ := index_facts t
  unfold iblk
  rw [View.read_apply]
  show V m c main_arg0 _ = _
  rw [V_main_arg0]
  congr 1
  funext a
  apply Fin.ext
  match a with
  | ⟨0, _⟩ => show win0_0.index t (0 : Fin 2) * 2048 + 1 * p.val = 2048 * t.val + p.val; rw [e0]; omega
  | ⟨1, _⟩ => show win0_0.index t (1 : Fin 2) * 784 + 1 * i.val = i.val; rw [e1]; omega

theorem w1block_apply (c : Dev nD) (t : Fin cfg0.N) (i : Fin 784) (j : Fin 512) :
    (iblk m c 1 t : Vec Ideal S784x512 .f32) (ix2 i j)
      = (m ((c : Thread nD τ).loc main_arg1) : S512x784.Idx → EReal) (ix2 j i) := by
  obtain ⟨-, -, e0, e1, -⟩ := index_facts t
  unfold iblk
  rw [View.read_apply]
  show (V m c main_call0_v0 : S784x512.Idx → EReal) _ = _
  rw [V_w1t, ← transpose_ix2_apply (m ((c : Thread nD τ).loc main_arg1) : S512x784.Idx → EReal)
    Facts₀.transposes_S512x784_S784x512_1_0 i j]
  congr 1
  funext a
  apply Fin.ext
  match a with
  | ⟨0, _⟩ => show win0_1.index t (0 : Fin 2) * 784 + 1 * i.val = i.val; rw [e0]; omega
  | ⟨1, _⟩ => show win0_1.index t (1 : Fin 2) * 512 + 1 * j.val = j.val; rw [e1]; omega

theorem w2block_apply (c : Dev nD) (t : Fin cfg0.N) (j : Fin 512) (k : Fin 512) :
    (iblk m c 2 t : Vec Ideal S512x512 .f32) (ix2 j k)
      = (m ((c : Thread nD τ).loc main_arg2) : S512x512.Idx → EReal) (ix2 k j) := by
  obtain ⟨-, -, -, -, e0, e1, -⟩ := index_facts t
  unfold iblk
  rw [View.read_apply]
  show (V m c main_call0_v1 : S512x512.Idx → EReal) _ = _
  rw [V_w2t, ← transpose_ix2_apply (m ((c : Thread nD τ).loc main_arg2) : S512x512.Idx → EReal)
    Facts₀.transposes_S512x512_S512x512_1_0 j k]
  congr 1
  funext a
  apply Fin.ext
  match a with
  | ⟨0, _⟩ => show win0_2.index t (0 : Fin 2) * 512 + 1 * j.val = j.val; rw [e0]; omega
  | ⟨1, _⟩ => show win0_2.index t (1 : Fin 2) * 512 + 1 * k.val = k.val; rw [e1]; omega

theorem w3block_apply (c : Dev nD) (t : Fin cfg0.N) (k : Fin 512) (q : Fin 10) :
    (iblk m c 3 t : Vec Ideal S512x10 .f32) (ix2 k q)
      = (m ((c : Thread nD τ).loc main_arg3) : S10x512.Idx → EReal) (ix2 q k) := by
  obtain ⟨-, -, -, -, -, -, e0, e1, -⟩ := index_facts t
  unfold iblk
  rw [View.read_apply]
  show (V m c main_call0_v2 : S512x10.Idx → EReal) _ = _
  rw [V_w3t, ← transpose_ix2_apply (m ((c : Thread nD τ).loc main_arg3) : S10x512.Idx → EReal)
    Facts₀.transposes_S10x512_S512x10_1_0 k q]
  congr 1
  funext a
  apply Fin.ext
  match a with
  | ⟨0, _⟩ => show win0_3.index t (0 : Fin 2) * 512 + 1 * k.val = k.val; rw [e0]; omega
  | ⟨1, _⟩ => show win0_3.index t (1 : Fin 2) * 10 + 1 * q.val = q.val; rw [e1]; omega

/-! ## What a point writes back, and the cover -/

/-- Point `t` writes back rows `2048·t … 2048·t + 2047` of the network's output. -/
theorem flushed_eq (c : Dev nD) (t : Fin cfg0.N) :
    (dats m 0 c).flushed 4 t = ((cfg0.win 4).blk t).view.read (Elt Ideal) (outOf m c) := by
  obtain ⟨-, -, -, -, -, -, -, -, e0, e1⟩ := index_facts t
  rw [Cert.KernelIdeal.Value.flushed4]
  unfold out0_4
  rw [View.canon_unit_zero zero_off]
  simp only [View.ld_unit_zero (S := S2048x784) zero_off, View.ld_unit_zero (S := S784x512) zero_off,
    View.ld_unit_zero (S := S512x512) zero_off, View.ld_unit_zero (S := S512x10) zero_off]
  funext y
  obtain ⟨p, q, rfl⟩ : ∃ (p : Fin 2048) (q : Fin 10), y = ix2 p q := ⟨y 0, y 1, eq_ix2 y⟩
  show k0_pay1 (F := Ideal) (iblk m c 0 t) (iblk m c 1 t) (iblk m c 2 t) (iblk m c 3 t) (ix2 p q)
    = outOf m c (((cfg0.win 4).blk t).view.emb (ix2 p q))
  have hemb : ((cfg0.win 4).blk t).view.emb (ix2 p q) = ix2 (rowOf t p) q := by
    funext a
    apply Fin.ext
    match a with
    | ⟨0, _⟩ => show win0_4.index t (0 : Fin 2) * 2048 + 1 * p.val = 2048 * t.val + p.val; rw [e0]; omega
    | ⟨1, _⟩ => show win0_4.index t (1 : Fin 2) * 10 + 1 * q.val = q.val; rw [e1]; omega
  rw [hemb]
  exact tile_eq_out (iblk m c 0 t) (iblk m c 1 t) (iblk m c 2 t) (iblk m c 3 t)
    (m ((c : Thread nD τ).loc main_arg0)) (m ((c : Thread nD τ).loc main_arg1)) (m ((c : Thread nD τ).loc main_arg2))
    (m ((c : Thread nD τ).loc main_arg3)) (rowOf t)
    (xblock_apply m c t) (w1block_apply m c t) (w2block_apply m c t) (w3block_apply m c t) p q

/-- An index of the result is in point `t`'s block iff each coordinate is in the block's range on its axis. -/
theorem mem_block (t : Fin cfg0.N) (i : S16384x10.Idx) :
    i ∈ ((cfg0.win 4).blk t).view.set ↔ ∀ a : Fin 2, win0_4.index t a * S2048x10.size a ≤ (i a).val
      ∧ (i a).val < win0_4.index t a * S2048x10.size a + S2048x10.size a := by
  show i ∈ ((View.whole main_v0).slice (win0_4.rect t)).set ↔ _
  rw [View.set_slice_whole, Rect.mem_set_unit]
  exact Iff.rfl

/-- Every entry of the result lies in the block of the point its row names. -/
theorem covered (i : S16384x10.Idx) :
    ∃ t : Fin cfg0.N, (cfg0.win 4).flush t = true ∧ i ∈ ((cfg0.win 4).blk t).view.set := by
  have hi0 : (i 0).val < 16384 := (i 0).isLt
  have hi1 : (i 1).val < 10 := (i 1).isLt
  let t : Fin cfg0.N := ⟨(i 0).val / 2048, by rw [show cfg0.N = 8 from N_0]; omega⟩
  obtain ⟨-, -, -, -, -, -, -, -, e0, e1⟩ := index_facts t
  have ht : t.val = (i 0).val / 2048 := rfl
  refine ⟨t, flush0_4 t, ?_⟩
  rw [mem_block]
  intro a
  match a with
  | ⟨0, _⟩ =>
    show win0_4.index t (0 : Fin 2) * 2048 ≤ (i 0).val ∧ (i 0).val < win0_4.index t (0 : Fin 2) * 2048 + 2048
    rw [e0, ht]; omega
  | ⟨1, _⟩ =>
    show win0_4.index t (1 : Fin 2) * 10 ≤ (i 1).val ∧ (i 1).val < win0_4.index t (1 : Fin 2) * 10 + 10
    rw [e1]; omega

/-- The result array after the run. -/
theorem result_eq (c : Dev nD) : (dats m 0 c).arrAt 4 cfg0.N = outOf m c :=
  (dats m 0 c).arrAt_eq_of_cover 4 (outOf m c) (fun t _ => flushed_eq m c t) covered

/-- The kernel's run, read: the result array at the network's output of the arguments, the arguments unchanged. -/
theorem kernel_run : θ_run defs (onTc (τ := τ) (main (F := Ideal))) ⟨m, fun _ => 0, ρ⟩ fun r => ∀ c : Dev nD,
      r.2.mem ((c : Thread nD τ).loc main_v0) = outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (result_eq m c), (h c).2⟩)
    (Cert.KernelIdeal.Value.run_blocks m ρ)

end Cert.Mlp

end
-- ==== Proof.MlpRef.lean ====
import proofs.«141468_g41755672052512_cont_8to1_b_1445_5_alg».proof.Proof.Gen.ReferenceIdeal.Read
import proofs.«141468_g41755672052512_cont_8to1_b_1445_5_alg».proof.Proof.MlpSpec

/-!
# The reference computes the three layers

The reference transposes the batch to `[784, 16384]`, multiplies each weight matrix from the left
(`W1 · xᵀ`, `W2 · h1`, `W3 · h2`, hidden activations laid `[512, 16384]`), takes the maximum with the zero splat
after the first two products and transposes the `[10, 16384]` result back. Read one operation at a time at entries
written by their two coordinates, each stage is the corresponding layer with its products written "weight times
activation"; the last stage is `Cert.Mlp.out` by `out_weight_first`.
-/

noncomputable section

namespace Cert.Mlp

open Idealize.ShloMosaic Idealize.ShloMosaic.ValueIdx Cert.ReferenceIdeal Cert.ReferenceIdeal.Read

/-! ## The stages' operand indices, by coordinates -/

theorem idx_v0 (i : Fin 784) (b : Fin 16384) : idx_main_v0 (ix2 i b) = ix2 b i :=
  funext fun a => by match a with | ⟨0, _⟩ => rfl | ⟨1, _⟩ => rfl
theorem lidx_v1 (j : Fin 512) (b : Fin 16384) (i : Fin 784) : lidx_main_v1 (ix2 j b) i = ix2 j i :=
  funext fun a => by match a with | ⟨0, _⟩ => rfl | ⟨1, _⟩ => rfl
theorem ridx_v1 (j : Fin 512) (b : Fin 16384) (i : Fin 784) : ridx_main_v1 (ix2 j b) i = ix2 i b :=
  funext fun a => by match a with | ⟨0, _⟩ => rfl | ⟨1, _⟩ => rfl
theorem lidx_v3 (k : Fin 512) (b : Fin 16384) (j : Fin 512) : lidx_main_v3 (ix2 k b) j = ix2 k j :=
  funext fun a => by match a with | ⟨0, _⟩ => rfl | ⟨1, _⟩ => rfl
theorem ridx_v3 (k : Fin 512) (b : Fin 16384) (j : Fin 512) : ridx_main_v3 (ix2 k b) j = ix2 j b :=
  funext fun a => by match a with | ⟨0, _⟩ => rfl | ⟨1, _⟩ => rfl
theorem lidx_v5 (o : Fin 10) (b : Fin 16384) (k : Fin 512) : lidx_main_v5 (ix2 o b) k = ix2 o k :=
  funext fun a => by match a with | ⟨0, _⟩ => rfl | ⟨1, _⟩ => rfl
theorem ridx_v5 (o : Fin 10) (b : Fin 16384) (k : Fin 512) : ridx_main_v5 (ix2 o b) k = ix2 k b :=
  funext fun a => by match a with | ⟨0, _⟩ => rfl | ⟨1, _⟩ => rfl
theorem idx_v6 (b : Fin 16384) (o : Fin 10) : idx_main_v6 (ix2 b o) = ix2 o b :=
  funext fun a => by match a with | ⟨0, _⟩ => rfl | ⟨1, _⟩ => rfl

/-! ## The stages at an entry -/

variable (x : FVec Ideal S16384x784 .f32) (w1 : FVec Ideal S512x784 .f32) (w2 : FVec Ideal S512x512 .f32)
  (w3 : FVec Ideal S10x512 .f32)

/-- The transposed batch: entry `(i, b)` is `x[b, i]`. -/
theorem batchT_apply (i : Fin 784) (b : Fin 16384) : val_main_v0 (F := Ideal) x (ix2 i b) = x (ix2 b i) := by
  rw [val_main_v0_apply, idx_v0]

/-- `W1 · xᵀ` at `(j, b)`. -/
theorem pre1_apply (j : Fin 512) (b : Fin 16384) :
    val_main_v1 (F := Ideal) x w1 (ix2 j b) = ∑ i : Fin 784, w1 (ix2 j i) * x (ix2 b i) := by
  rw [val_main_v1_apply]
  refine Finset.sum_congr rfl fun i _ => ?_
  rw [lidx_v1, ridx_v1, batchT_apply]

/-- The first hidden layer at `(j, b)`. -/
theorem act1_apply (j : Fin 512) (b : Fin 16384) :
    val_main_v2 (F := Ideal) x w1 (ix2 j b) = relu (∑ i : Fin 784, w1 (ix2 j i) * x (ix2 b i)) := by
  rw [val_main_v2_apply, val_main_call0_v0_apply, val_main_call0_cst_apply, pre1_apply]
  rfl

/-- `W2 · h1` at `(k, b)`. -/
theorem pre2_apply (k : Fin 512) (b : Fin 16384) :
    val_main_v3 (F := Ideal) x w1 w2 (ix2 k b)
      = ∑ j : Fin 512, w2 (ix2 k j) * relu (∑ i : Fin 784, w1 (ix2 j i) * x (ix2 b i)) := by
  rw [val_main_v3_apply]
  refine Finset.sum_congr rfl fun j _ => ?_
  rw [lidx_v3, ridx_v3, act1_apply]

/-- The second hidden layer at `(k, b)`. -/
theorem act2_apply (k : Fin 512) (b : Fin 16384) :
    val_main_v4 (F := Ideal) x w1 w2 (ix2 k b)
      = relu (∑ j : Fin 512, w2 (ix2 k j) * relu (∑ i : Fin 784, w1 (ix2 j i) * x (ix2 b i))) := by
  rw [val_main_v4_apply, val_main_call1_v0_apply, val_main_call1_cst_apply, pre2_apply]
  rfl

/-- `W3 · h2` at `(o, b)`. -/
theorem outT_apply (o : Fin 10) (b : Fin 16384) :
    val_main_v5 (F := Ideal) x w1 w2 w3 (ix2 o b)
      = ∑ k : Fin 512, w3 (ix2 o k) * relu (∑ j : Fin 512, w2 (ix2 k j) * relu (∑ i : Fin 784, w1 (ix2 j i) * x (ix2 b i))) := by
  rw [val_main_v5_apply]
  refine Finset.sum_congr rfl fun k _ => ?_
  rw [lidx_v5, ridx_v5, act2_apply]

/-- The reference's result array is the network's output. -/
theorem reference_eq_out : val_main_v6 (F := Ideal) x w1 w2 w3 = out x w1 w2 w3 := by
  funext i
  obtain ⟨b, o, rfl⟩ : ∃ (b : Fin 16384) (o : Fin 10), i = ix2 b o := ⟨i 0, i 1, eq_ix2 i⟩
  rw [val_main_v6_apply, idx_v6, outT_apply]
  exact out_weight_first x w1 w2 w3 b o

end Cert.Mlp

end
-- ==== Proof.lean ====
/- A three-layer perceptron, `out = (W3 · relu (W2 · relu (W1 · xᵀ)))ᵀ` for a batch `x : [16384, 784]` and weights
   `W1 : [512, 784]`, `W2 : [512, 512]`, `W3 : [10, 512]`, computed two ways.

   The kernel transposes the three weights on the host and runs one region over eight tiles of 2048 batch rows; on a tile
   it forms `relu (relu (xb · W1ᵀ) · W2ᵀ) · W3ᵀ` by three matrix products into the zero accumulator, narrowing the
   operands to bf16 in between. The reference transposes the batch, multiplies the weights from the left with the hidden
   activations laid `[512, 16384]`, and transposes the result back.

   On the extended reals the narrowing is the identity and both programs compute, at entry `(b, o)`,
   `∑ k, relu (∑ j, relu (∑ i, x[b, i] · W1[j, i]) · W2[k, j]) · W3[o, k]` (`Cert.Mlp.out`, Proof/MlpSpec.lean): the kernel
   with each product written "activation times weight" (Proof/MlpBody.lean for one tile, Proof/MlpKernel.lean for the
   eight tiles covering the result), the reference with each product written "weight times activation"
   (Proof/MlpRef.lean). The two agree by commutativity of multiplication alone; no sum is re-ordered and nothing is
   distributed, so the finiteness of the inputs is never used. The ideal pass rewrote nothing, so the kernel's
   idealization is its own text read on the extended reals. The frames of the two kernel programs are the generated
   ones; the reference's frame is its generated run with the result dropped. -/
import proofs.«141468_g41755672052512_cont_8to1_b_1445_5_alg».proof.Defs
import proofs.«141468_g41755672052512_cont_8to1_b_1445_5_alg».proof.Proof.Gen.Kernel
import proofs.«141468_g41755672052512_cont_8to1_b_1445_5_alg».proof.Proof.Gen.Kernel.Skeleton
import proofs.«141468_g41755672052512_cont_8to1_b_1445_5_alg».proof.Proof.Gen.Kernel.Launch
import proofs.«141468_g41755672052512_cont_8to1_b_1445_5_alg».proof.Proof.Gen.Kernel.Points
import proofs.«141468_g41755672052512_cont_8to1_b_1445_5_alg».proof.Proof.Gen.Kernel.Frame
import proofs.«141468_g41755672052512_cont_8to1_b_1445_5_alg».proof.Proof.Gen.KernelIdeal
import proofs.«141468_g41755672052512_cont_8to1_b_1445_5_alg».proof.Proof.Gen.KernelIdeal.Skeleton
import proofs.«141468_g41755672052512_cont_8to1_b_1445_5_alg».proof.Proof.Gen.KernelIdeal.Launch
import proofs.«141468_g41755672052512_cont_8to1_b_1445_5_alg».proof.Proof.Gen.KernelIdeal.Points
import proofs.«141468_g41755672052512_cont_8to1_b_1445_5_alg».proof.Proof.Gen.KernelIdeal.Frame
import proofs.«141468_g41755672052512_cont_8to1_b_1445_5_alg».proof.Proof.Gen.ReferenceIdeal
import proofs.«141468_g41755672052512_cont_8to1_b_1445_5_alg».proof.Proof.Gen.Pre_finite_inputs
import proofs.«141468_g41755672052512_cont_8to1_b_1445_5_alg».proof.Proof.Gen.KernelIdeal.Value
import proofs.«141468_g41755672052512_cont_8to1_b_1445_5_alg».proof.Proof.Gen.ReferenceIdeal.Run
import proofs.«141468_g41755672052512_cont_8to1_b_1445_5_alg».proof.Proof.Gen.ReferenceIdeal.Read
import proofs.«141468_g41755672052512_cont_8to1_b_1445_5_alg».proof.Proof.MlpKernel
import proofs.«141468_g41755672052512_cont_8to1_b_1445_5_alg».proof.Proof.MlpRef
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the network's output of the (agreeing) arguments in their result arrays. -/
theorem algebraic : Cert.algebraic_KernelIdeal_ReferenceIdeal := by
  intro m ρ m' ρ' _ hagree
  refine ⟨fun c => Cert.Mlp.outOf m c, Cert.Mlp.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Mlp.reference_eq_out, (hagree c).1, (hagree c).2.1,
    (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
